-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64 : Shape := ⟨2, ![256, 64]⟩
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : IVec S256x64 32) (main_arg1 : FVec F S1024x1024 .f32) : IVec S_ 1 :=
  let main_v0 : FVec F S1024x1024 .f32 := Host.absf main_arg1
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_c_0 : IVec S_ 32 := constantI S_ 32 0#32
  let main_v4 : IVec S256x64 32 := broadcastInDim S256x64 ![] bcast_S_S256x64 main_c_0
  let main_v5 : IVec S256x64 1 := cmpi .sge main_arg0 main_v4
  let main_c_1 : IVec S_ 32 := constantI S_ 32 1024#32
  let main_v6 : IVec S256x64 32 := broadcastInDim S256x64 ![] bcast_S_S256x64 main_c_1
  let main_v7 : IVec S256x64 1 := cmpi .slt main_arg0 main_v6
  let main_v8 : IVec S256x64 1 := andi main_v5 main_v7
  let main_c_2 : IVec S_ 1 := constantI S_ 1 1#1
  let main_v9 : IVec S_ 1 := (fun x v => Host.reduce IntOp.andi x v reducesTo_S256x64_S_d0_1 h_S_) main_v8 main_c_2
  let main_v10 : IVec S_ 1 := andi main_v3 main_v9
  main_v10
-- ==== Kernel.lean ====
abbrev S256x64 : Shape := ⟨2, ![256, 64]⟩
abbrev S1024x1024 : Shape := ⟨2, ![1024, 1024]⟩
abbrev S256x1024x64 : Shape := ⟨3, ![256, 1024, 64]⟩
abbrev S32x64 : Shape := ⟨2, ![32, 64]⟩
abbrev S32x1024x64 : Shape := ⟨3, ![32, 1024, 64]⟩
abbrev S2048x1 : Shape := ⟨2, ![2048, 1]⟩
abbrev S2048x1024 : Shape := ⟨2, ![2048, 1024]⟩
abbrev S32x64x1024 : Shape := ⟨3, ![32, 64, 1024]⟩
abbrev S256x1024x8x8 : Shape := ⟨4, ![256, 1024, 8, 8]⟩

abbrev nBuf : Space → Nat
  | .hbm => 4
  | .vmem => 5
  | .smem => 0
  | _ => 0

abbrev bufTy : (tb : Table) → Fin (tcTables nBuf tb) → BufTy
  | .hbm, ⟨0, _⟩ => ⟨S256x64, .i32⟩
  | .hbm, ⟨1, _⟩ => ⟨S1024x1024, .f32⟩
  | .hbm, ⟨2, _⟩ => ⟨S256x1024x64, .f32⟩
  | .hbm, ⟨3, _⟩ => ⟨S256x1024x8x8, .f32⟩
  | .local _ .vmem, ⟨0, _⟩ => ⟨S32x64, .i32⟩
  | .local _ .vmem, ⟨1, _⟩ => ⟨S32x64, .i32⟩
  | .local _ .vmem, ⟨2, _⟩ => ⟨S1024x1024, .f32⟩
  | .local _ .vmem, ⟨3, _⟩ => ⟨S32x1024x64, .f32⟩
  | .local _ .vmem, ⟨4, _⟩ => ⟨S32x1024x64, .f32⟩
  | _, _ => ⟨S256x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S32x64_S32x64_0_0 : ∀ a, (![0, 0] : Fin 2 → Nat) a + S32x64.size a ≤ S32x64.size a
  h_S32x64 : 0 < S32x64.numel
  inb_S1024x1024_S1024x1024_0_0 : ∀ a, (![0, 0] : Fin 2 → Nat) a + S1024x1024.size a ≤ S1024x1024.size a
  h_S1024x1024 : 0 < S1024x1024.numel
  shapeCasts_S32x64_S2048x1 : S32x64.ShapeCasts S2048x1
  iota_S2048x1024_d1_w32 : S2048x1024.Iotas .tc 32 [1]
  broadcasts_S2048x1_S2048x1024 : S2048x1.Broadcasts S2048x1024
  natLt_1_32 : 1 < 32
  shapeCasts_S2048x1024_S32x64x1024 : S2048x1024.ShapeCasts S32x64x1024
  transposes_S32x64x1024_p0_2_1_S32x1024x64 : S32x64x1024.Transposes [0, 2, 1] S32x1024x64
  inb_S32x1024x64_S32x1024x64_0_0_0 : ∀ a, (![0, 0, 0] : Fin 3 → Nat) a + S32x1024x64.size a ≤ S32x1024x64.size a
  h_S32x1024x64 : 0 < S32x1024x64.numel
  shapeCasts_S256x1024x64_S256x1024x8x8 : S256x1024x64.ShapeCasts S256x1024x8x8
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64.size a ≤ S256x64.size a
  hwx0_0 : ∀ i : grid0.Coords, EltTy.bits .i32 = 32 ∨ (Rect.block (s := S256x64) S32x64.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1024x64.size a ≤ S256x1024x64.size a
  hwx0_2 : ∀ i : grid0.Coords, EltTy.bits .f32 = 32 ∨ (Rect.block (s := S256x1024x64) S32x1024x64.size (cc0_transform_2 i) (hinb0_2 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_arg0) S32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x64 : Shape := ⟨2, ![256, 64]⟩
abbrev S1024x1024 : Shape := ⟨2, ![1024, 1024]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x1024 : Shape := ⟨2, ![16384, 1024]⟩
abbrev S256x8x8x1024 : Shape := ⟨4, ![256, 8, 8, 1024]⟩
abbrev S256x1024x8x8 : Shape := ⟨4, ![256, 1024, 8, 8]⟩

abbrev nBuf : Space → Nat
  | .hbm => 28
  | .vmem => 0
  | .smem => 0
  | _ => 0

abbrev bufTy : (tb : Table) → Fin (tcTables nBuf tb) → BufTy
  | .hbm, ⟨0, _⟩ => ⟨S256x64, .i32⟩
  | .hbm, ⟨1, _⟩ => ⟨S1024x1024, .f32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x1024, .f32⟩
  | .hbm, ⟨22, _⟩ => ⟨S16384x1024, .i1⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S256x8x8x1024, .f32⟩
  | .hbm, ⟨27, _⟩ => ⟨S256x1024x8x8, .f32⟩
  | _, _ => ⟨S256x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩

abbrev nD : Nat := 1
abbrev τ : Topo := Topo.v7x

variable {F : FTy → Type} [FloatOps F]

class Facts₀ : Prop where
  shapeCasts_S256x64_S16384 : S256x64.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x1024_0 : S16384.BroadcastsInDim S16384x1024 (![0] : Fin 1 → Fin S16384x1024.rank)
  bcast_S_S16384x1024 : S_.BroadcastsInDim S16384x1024 (![] : Fin 0 → Fin S16384x1024.rank)
  shapeCasts_S16384x1024_S256x8x8x1024 : S16384x1024.ShapeCasts S256x8x8x1024
  transposes_S256x8x8x1024_S256x1024x8x8_0_3_1_2 : S256x8x8x1024.Transposes [0, 3, 1, 2] S256x1024x8x8
  gather_S1024x1024_S16384x1_S16384x1024_1_0_n_n_0_1_11024_wf : GatherDims.WF S1024x1024 S16384x1 S16384x1024 [1] [0] [] [0] [] 1 ![1, 1024]

variable [Facts₀]

def gather_S1024x1024_S16384x1_S16384x1024_1_0_n_n_0_1_11024 : GatherDims S1024x1024 S16384x1 S16384x1024 where
  offsetDims := [1]
  collapsedSliceDims := [0]
  operandBatchingDims := []
  startIndicesBatchingDims := []
  startIndexMap := [0]
  indexVectorDim := 1
  sliceSizes := ![1, 1024]
  wf := gather_S1024x1024_S16384x1_S16384x1024_1_0_n_n_0_1_11024_wf

class Facts : Prop extends Facts₀ where

variable [Facts]
-- ==== Proof.Spec.lean ====
/-
  The function both programs compute, stated once over literal shapes and with no program in sight.

  The table `w` has 1024 rows of 1024 entries; the index array `idx` has 256 samples of 64 tokens,
  each token an index word.  Token `p` of a sample sits at position `(p / 8, p % 8)` of the
  sample's 8 x 8 grid.  The result at `(b, c, g, h)` is entry `c` of the table row that token
  `8 * g + h` of sample `b` names:

      gathered idx w (b, c, g, h) = w (idx (b, 8 * g + h), c).

  An index word names a row when, read as a natural number, it is below 1024 (`InRange`); that
  is the same as the signed word lying in [0, 1024).  `rowOf` reads a word as a row number; it
  reduces modulo 1024 only so that it is total, and on words in range the reduction does nothing.
-/
import Idealize.ShloMosaic.PureOps.Ideal
import Idealize.ShloMosaic.Lib.ValueIdx

noncomputable section

namespace Cert.Spec

open Idealize.ShloMosaic Idealize.ShloMosaic.ValueIdx

/-- The index array: 256 samples of 64 tokens. -/
abbrev SIdx : Shape := ⟨2, ![256, 64]⟩
/-- The table: 1024 rows of 1024 entries. -/
abbrev STab : Shape := ⟨2, ![1024, 1024]⟩
/-- The result: per sample, per table column, the 8 x 8 grid of tokens. -/
abbrev SOut : Shape := ⟨4, ![256, 1024, 8, 8]⟩

/-- Every index word, read as a natural number, is a row number of the table. -/
def InRange (idx : IVec SIdx 32) : Prop := ∀ j, (idx j).toNat < 1024

/-- A word read as a row number of the table. -/
def rowOf (x : BitVec 32) : Fin 1024 := ⟨x.toNat % 1024, Nat.mod_lt _ (by norm_num)⟩

theorem rowOf_val_of_lt {x : BitVec 32} (h : x.toNat < 1024) : (rowOf x).val = x.toNat :=
  Nat.mod_eq_of_lt h

/-- The token of a sample at position `(g, h)` of its 8 x 8 grid. -/
def tok (g h : Fin 8) : Fin 64 := ⟨8 * g.val + h.val, by omega⟩

theorem tok_val (g h : Fin 8) : (tok g h).val = 8 * g.val + h.val := rfl

/-- The gathered table: at `(b, c, g, h)`, entry `c` of the row named by token `8 g + h` of sample `b`. -/
def gathered {α : Type} (idx : IVec SIdx 32) (w : STab.Idx → α) : SOut.Idx → α :=
  fun i => w (ix2 (rowOf (idx (ix2 (⟨(i 0).val, (i 0).isLt⟩ : Fin 256) (tok ⟨(i 2).val, (i 2).isLt⟩ ⟨(i 3).val, (i 3).isLt⟩))))
    (⟨(i 1).val, (i 1).isLt⟩ : Fin 1024))

theorem gathered_apply {α : Type} (idx : IVec SIdx 32) (w : STab.Idx → α) (b : Fin 256) (c : Fin 1024) (g h : Fin 8) :
    gathered idx w (ix4 b c g h) = w (ix2 (rowOf (idx (ix2 b (tok g h)))) c) := rfl

end Cert.Spec

end
-- ==== Proof.PreRange.lean ====
/-
  The printed precondition, read back as a range of the index words.

  The precondition is the conjunction of two "all" tests.  The second one asks, of every index
  word x, that 0 <= x and x < 1024 with both compares taken SIGNED; it is folded by "and" over
  both axes from the constant 1.  If the whole precondition is 1 then this fold is 1, so every
  element folded is 1, so both signed compares hold at every position.  A 32-bit word whose
  signed value lies in [0, 1024) has its top bit clear, hence its unsigned value is the same
  number and is below 1024.
-/
import proofs.«427509_j69252052681266_3_alg».proof.Pre_finite_inputs
import proofs.«427509_j69252052681266_3_alg».proof.Proof.Spec
import Idealize.ShloMosaic.Lib.ReduceAll
import Idealize.ShloMosaic.Lib.ValueIdx

namespace Cert.PreRange

open Idealize.ShloMosaic

/-- The shape of rank 0 has exactly one index. -/
instance subsingleton_scalarIdx : Subsingleton Cert.Pre_finite_inputs.S_.Idx :=
  ⟨fun a b => funext fun d => d.elim0⟩

/-- A 32-bit word whose signed value lies in [0, 1024) is, read unsigned, below 1024: a word with
    the top bit set reads negative, so the top bit is clear and both readings agree. -/
theorem toNat_lt_of_signed_range (x : BitVec 32)
    (h0 : (0#32 : BitVec 32).toInt ≤ x.toInt) (h1 : x.toInt < (1024#32 : BitVec 32).toInt) :
    x.toNat < 1024 := by
  have e0 : (0#32 : BitVec 32).toInt = 0 := by decide
  have e1 : (1024#32 : BitVec 32).toInt = 1024 := by decide
  rw [e0] at h0
  rw [e1] at h1
  have hx := x.isLt
  rw [BitVec.toInt_eq_toNat_cond] at h0 h1
  split at h0 <;> omega

/-- If the printed precondition holds then every index word, read unsigned, is below 1024. -/
theorem inRange_of_pre {F : FTy → Type} [FloatOps F] [Cert.Pre_finite_inputs.Facts]
    (idx : IVec Cert.Pre_finite_inputs.S256x64 32) (w : FVec F Cert.Pre_finite_inputs.S1024x1024 .f32)
    (h : Cert.Pre_finite_inputs.fn (F := F) idx w = fun _ => 1#1) : Cert.Spec.InRange idx := by
  intro j
  -- the one entry of the rank-0 result
  have hr := congrFun h ValueIdx.ix0
  dsimp only [Cert.Pre_finite_inputs.fn] at hr
  -- the second conjunct: the fold of the range tests is 1
  obtain ⟨-, hall⟩ := IntOp.andi_eq_one.1 hr
  -- so the range test at position j is 1
  have hj := Host.reduce_andi_all _ _ _ _ _ hall j
  -- both signed compares hold there
  obtain ⟨hge, hlt⟩ := IntOp.andi_eq_one.1 hj
  have hge' := IntOp.cmpi_sge.1 hge
  have hlt' := IntOp.cmpi_slt.1 hlt
  exact toNat_lt_of_signed_range (idx j) hge' hlt'

end Cert.PreRange
-- ==== Proof.OneHot.lean ====
/-
  A one-hot matrix product selects a row.

  The kernel's body turns the 32 x 64 block of index words into a 2048 x 1024 matrix of zeros and ones:
  row `64 b + p` holds a one in the column whose number, written as a word, equals the word of token `p`
  of sample `b`, and zeros elsewhere.  It multiplies that matrix by the 1024 x 1024 table into a zero
  accumulator, regroups the 2048 rows as 32 x 64, and swaps the last two axes.  When the word is below
  1024 exactly one column of the row matches, so the sum over the contracted coordinate has one term that
  is not zero: one times the table entry in the named row.  On the extended reals `1 * x = x` and
  `0 * x = 0` for every `x`, so no finiteness of the table is needed.  Hence at `(b, c, p)` the body's
  value is entry `c` of the table row named by token `p` of sample `b`.
-/
import proofs.«427509_j69252052681266_3_alg».proof.Proof.Gen.KernelIdeal.Skeleton
import proofs.«427509_j69252052681266_3_alg».proof.Proof.Spec
import Idealize.ShloMosaic.Lib.ValueIdx
import Idealize.ShloMosaic.Lib.Pipeline.Value
import Idealize.ShloMosaic.Lib.ValueLayout
import Idealize.ShloMosaic.Lib.StableHlo.Predicate
import Idealize.ShloMosaic.Lib.KernelVsHost
import Idealize.ShloMosaic.PureOps.Ideal.Laws

noncomputable section

namespace Cert.KernelIdeal.OneHot

open Idealize.ShloMosaic Idealize.ShloMosaic.ValueIdx Idealize.ShloMosaic.Pipeline
open Cert.KernelIdeal Cert.KernelIdeal.Gen
open Facts₀ Facts

variable [Cert.KernelIdeal.Facts]

/-! ## The product's operand indices, axis by axis

At output index `j = (r, c)` and contraction position `k` the left operand is read at `(r, k)` and the
right operand at `(k, c)`. -/

theorem lhs_dot_S2048x1024_S1024x1024_S2048x1024_1_0_0_1_n_n_0 (j : S2048x1024.Idx)
    (k : dot_S2048x1024_S1024x1024_S2048x1024_1_0_0_1_n_n.contr.Idx) :
    (dot_S2048x1024_S1024x1024_S2048x1024_1_0_0_1_n_n.lhsIdx j k 0 : ℕ) = j 0 := by
  simp [DotDims.lhsIdx, dot_S2048x1024_S1024x1024_S2048x1024_1_0_0_1_n_n]; rfl

theorem lhs_dot_S2048x1024_S1024x1024_S2048x1024_1_0_0_1_n_n_1 (j : S2048x1024.Idx)
    (k : dot_S2048x1024_S1024x1024_S2048x1024_1_0_0_1_n_n.contr.Idx) :
    (dot_S2048x1024_S1024x1024_S2048x1024_1_0_0_1_n_n.lhsIdx j k 1 : ℕ) = k ⟨0, by decide⟩ :=
  dot_S2048x1024_S1024x1024_S2048x1024_1_0_0_1_n_n.lhsIdx_val_of_single (cl := 1) rfl j k

theorem rhs_dot_S2048x1024_S1024x1024_S2048x1024_1_0_0_1_n_n_0 (j : S2048x1024.Idx)
    (k : dot_S2048x1024_S1024x1024_S2048x1024_1_0_0_1_n_n.contr.Idx) :
    (dot_S2048x1024_S1024x1024_S2048x1024_1_0_0_1_n_n.rhsIdx j k 0 : ℕ) = k ⟨0, by decide⟩ :=
  dot_S2048x1024_S1024x1024_S2048x1024_1_0_0_1_n_n.rhsIdx_val_of_single (cr := 0) rfl j k

theorem rhs_dot_S2048x1024_S1024x1024_S2048x1024_1_0_0_1_n_n_1 (j : S2048x1024.Idx)
    (k : dot_S2048x1024_S1024x1024_S2048x1024_1_0_0_1_n_n.contr.Idx) :
    (dot_S2048x1024_S1024x1024_S2048x1024_1_0_0_1_n_n.rhsIdx j k 1 : ℕ) = j 1 := by
  simp [DotDims.rhsIdx, dot_S2048x1024_S1024x1024_S2048x1024_1_0_0_1_n_n]; rfl

/-! ## The product into a zero accumulator, read at an index -/

/-- Entry `(r, c)` of the product of a 2048 x 1024 by a 1024 x 1024 matrix, added to zero, is the sum over
    the contracted coordinate of the products of the entries. -/
theorem matmul_zero_at (A : FVec Ideal S2048x1024 .f32) (B : FVec Ideal S1024x1024 .f32) (r : Fin 2048) (c : Fin 1024) :
    matmul (F := Ideal) dot_S2048x1024_S1024x1024_S2048x1024_1_0_0_1_n_n (some .fp32) A B
        (constant (F := Ideal) S2048x1024 .f32 0x00000000#32) (ix2 r c)
      = ∑ k : Fin 1024, A (ix2 r k) * B (ix2 k c) := by
  show FloatOps.matmul dot_S2048x1024_S1024x1024_S2048x1024_1_0_0_1_n_n (some .fp32) A B
        (constant (F := Ideal) S2048x1024 .f32 0x00000000#32) (ix2 r c) = _
  rw [Ideal.matmul_constant_zero_apply,
    ← Equiv.sum_comp (contrEquiv1 dot_S2048x1024_S1024x1024_S2048x1024_1_0_0_1_n_n 1024 rfl rfl).symm]
  refine Finset.sum_congr rfl fun k _ => ?_
  have ck := contrEquiv1_symm_val dot_S2048x1024_S1024x1024_S2048x1024_1_0_0_1_n_n 1024 rfl rfl k
  have hl : dot_S2048x1024_S1024x1024_S2048x1024_1_0_0_1_n_n.lhsIdx (ix2 r c)
      ((contrEquiv1 dot_S2048x1024_S1024x1024_S2048x1024_1_0_0_1_n_n 1024 rfl rfl).symm k) = ix2 r k := by
    funext ax; apply Fin.ext
    match ax with
    | ⟨0, _⟩ => exact lhs_dot_S2048x1024_S1024x1024_S2048x1024_1_0_0_1_n_n_0 _ _
    | ⟨1, _⟩ => exact (lhs_dot_S2048x1024_S1024x1024_S2048x1024_1_0_0_1_n_n_1 _ _).trans ck
  have hr : dot_S2048x1024_S1024x1024_S2048x1024_1_0_0_1_n_n.rhsIdx (ix2 r c)
      ((contrEquiv1 dot_S2048x1024_S1024x1024_S2048x1024_1_0_0_1_n_n 1024 rfl rfl).symm k) = ix2 k c := by
    funext ax; apply Fin.ext
    match ax with
    | ⟨0, _⟩ => exact (rhs_dot_S2048x1024_S1024x1024_S2048x1024_1_0_0_1_n_n_0 _ _).trans ck
    | ⟨1, _⟩ => exact rhs_dot_S2048x1024_S1024x1024_S2048x1024_1_0_0_1_n_n_1 _ _
  rw [hl, hr]

/-! ## The one-hot matrix, read at an index -/

/-- The set bit widened to a word and converted to a float is one. -/
theorem sitofp_bit_one : (FloatOps.sitofp (F := Ideal) .f32 ((1#1 : BitVec 1).setWidth 32) : EReal) = 1 := by
  show ((((1#1 : BitVec 1).setWidth 32).toInt : ℝ) : EReal) = 1
  rw [toInt_setWidth_bit]; simp

/-- The clear bit widened to a word and converted to a float is zero. -/
theorem sitofp_bit_zero : (FloatOps.sitofp (F := Ideal) .f32 ((0#1 : BitVec 1).setWidth 32) : EReal) = 0 := by
  show ((((0#1 : BitVec 1).setWidth 32).toInt : ℝ) : EReal) = 0
  rw [toInt_setWidth_bit]; simp

/-- A column number below 1024, written as a word, is a given word in range exactly when it is that word's row. -/
theorem ofNat_eq_iff_rowOf (x : BitVec 32) (hx : x.toNat < 1024) (k : Fin 1024) :
    BitVec.ofNat 32 k.val = x ↔ k = Cert.Spec.rowOf x := by
  have hk := k.isLt
  constructor
  · intro he
    apply Fin.ext
    rw [Cert.Spec.rowOf_val_of_lt hx, ← he, BitVec.toNat_ofNat]
    omega
  · intro he
    apply BitVec.eq_of_toNat_eq
    rw [BitVec.toNat_ofNat, he, Cert.Spec.rowOf_val_of_lt hx]
    omega

/-- Row `64 b + p` of the one-hot matrix: column `k` holds one when `k` is the row that token `p` of sample
    `b` names, and zero otherwise. -/
theorem onehot_at (v0 : Vec Ideal S32x64 .i32) (b : Fin 32) (p : Fin 64) (hx : (v0 (ix2 b p)).toNat < 1024)
    (r : Fin 2048) (hr : r.val = b.val * 64 + p.val) (k : Fin 1024)
    (shapeCasts_S32x64_S2048x1 : S32x64.ShapeCasts S2048x1) (iota_S2048x1024_d1_w32 : S2048x1024.Iotas .tc 32 [1])
    (broadcasts_S2048x1_S2048x1024 : S2048x1.Broadcasts S2048x1024) (natLt_1_32 : 1 < 32) :
    (sitofp (F := Ideal) .f32 (extui 32 (cmpi .eq (iota .tc S2048x1024 32 [1] iota_S2048x1024_d1_w32)
        (broadcastTo S2048x1024 (shapeCast S2048x1 v0 shapeCasts_S32x64_S2048x1) broadcasts_S2048x1_S2048x1024))
        natLt_1_32) : FVec Ideal S2048x1024 .f32) (ix2 r k)
      = if k = Cert.Spec.rowOf (v0 (ix2 b p)) then (1 : EReal) else 0 := by
  have e3 : iota .tc S2048x1024 32 [1] iota_S2048x1024_d1_w32 (ix2 r k) = BitVec.ofNat 32 k.val :=
    iota_single_apply .tc S2048x1024 32 1 iota_S2048x1024_d1_w32 (ix2 r k)
  have e4 : broadcastTo S2048x1024 (shapeCast S2048x1 v0 shapeCasts_S32x64_S2048x1) broadcasts_S2048x1_S2048x1024 (ix2 r k)
      = v0 (ix2 b p) := by
    refine (broadcastTo_apply _ broadcasts_S2048x1_S2048x1024 (ix2 r k) (ix2 r (0 : Fin 1))
      fun a => match a with | ⟨0, _⟩ => rfl | ⟨1, _⟩ => rfl).trans ?_
    refine shapeCast_apply v0 shapeCasts_S32x64_S2048x1 (ix2 r (0 : Fin 1)) (ix2 b p) ?_
    rw [Shape.rowMajor_val_two, Shape.rowMajor_val_two]
    show b.val * 64 + p.val = r.val * 1 + 0
    omega
  show FloatOps.sitofp (F := Ideal) .f32
      ((IntOp.cmpi .eq (iota .tc S2048x1024 32 [1] iota_S2048x1024_d1_w32 (ix2 r k))
        (broadcastTo S2048x1024 (shapeCast S2048x1 v0 shapeCasts_S32x64_S2048x1) broadcasts_S2048x1_S2048x1024 (ix2 r k))).setWidth 32) = _
  rw [e3, e4]
  by_cases hk : k = Cert.Spec.rowOf (v0 (ix2 b p))
  · rw [if_pos hk, StableHlo.Predicate.cmpi_eq_iff.2 ((ofNat_eq_iff_rowOf _ hx k).2 hk)]
    exact sitofp_bit_one
  · rw [if_neg hk, eq_zero_of_ne_one fun h1 => hk ((ofNat_eq_iff_rowOf _ hx k).1 (StableHlo.Predicate.cmpi_eq_iff.1 h1))]
    exact sitofp_bit_zero

/-! ## The body's value at an index -/

/-- At `(b, c, p)` the kernel body's value is entry `c` of the table row that token `p` of sample `b` names. -/
theorem pay_apply (v0 : Vec Ideal S32x64 .i32) (v1 : Vec Ideal S1024x1024 .f32) (h0 : ∀ j, (v0 j).toNat < 1024)
    (b : Fin 32) (c : Fin 1024) (p : Fin 64) :
    Gen.k0_pay1 (F := Ideal) v0 v1 (ix3 b c p) = v1 (ix2 (Cert.Spec.rowOf (v0 (ix2 b p))) c) := by
  have hlt : b.val * 64 + p.val < 2048 := by have := b.isLt; have := p.isLt; omega
  unfold Gen.k0_pay1
  -- the swap of the last two axes, then the regrouping of the 2048 rows as 32 x 64
  refine (transpose_ix3_021_apply _ _ b c p).trans ?_
  refine (shapeCast_apply _ _ (ix3 b p c) (ix2 (⟨b.val * 64 + p.val, hlt⟩ : Fin 2048) c) ?_).trans ?_
  · rw [Shape.rowMajor_val_two, Shape.rowMajor_val_three]
    rfl
  -- the product is a sum over the contracted coordinate, and one term of it survives
  refine (matmul_zero_at _ _ _ _).trans ?_
  rw [Finset.sum_eq_single (Cert.Spec.rowOf (v0 (ix2 b p)))]
  · rw [onehot_at v0 b p (h0 _) _ rfl, if_pos rfl, one_mul]
  · intro k _ hk
    rw [onehot_at v0 b p (h0 _) _ rfl, if_neg hk, zero_mul]
  · intro h
    exact absurd (Finset.mem_univ _) h

end Cert.KernelIdeal.OneHot

end
-- ==== Proof.KernelValue.lean ====
/-
  What the kernel's program leaves in its result, read as one function of its two arguments.

  The region runs eight grid points; point `t` works on samples `32 t … 32 t + 31`.  Its body builds, for each of
  the block's 32 x 64 tokens, the row of 1024 zeros and ones that has its one at the token's index word, multiplies
  that one-hot matrix with the whole table, and stores the product with the table axis moved before the token
  axis.  A product with a one-hot row is the table row the one sits at, so the block written back at point `t` is
  block `t` of the array `rows`: at `(b, c, p)`, entry `c` of the table row named by token `p` of sample `b`.
  The eight blocks tile the array along the sample axis, so the array ends at `rows`; the line after the region
  only re-lays the 64 tokens of a sample out as its 8 x 8 grid, which makes the result the gathered table.
-/
import proofs.«427509_j69252052681266_3_alg».proof.Proof.Gen.KernelIdeal.Frame
import proofs.«427509_j69252052681266_3_alg».proof.Proof.Spec
import proofs.«427509_j69252052681266_3_alg».proof.Proof.OneHot
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen

variable (m : (ℓ : Loc nD τ sig) → Buf (Elt Ideal) ℓ) (ρ : Dev nD → PrngReg)

open Cert.KernelIdeal.OneHot (pay_apply)

theorem hz2 : (![0, 0] : Fin 2 → Nat) = fun _ => 0 := funext fun a => by fin_cases a <;> rfl
theorem hz3 : (![0, 0, 0] : Fin 3 → Nat) = fun _ => 0 := funext fun a => by fin_cases a <;> rfl

/-- The array the region leaves: per sample `b`, table column `c` and token `p`, entry `c` of the table row that
    token `p` of sample `b` names. -/
def rows (idx : S256x64.Idx → BitVec 32) (w : S1024x1024.Idx → Elt Ideal .f32) : S256x1024x64.Idx → Elt Ideal .f32 :=
  fun i => w (ix2 (Cert.Spec.rowOf (idx (ix2 (⟨(i 0).val, (i 0).isLt⟩ : Fin 256) (⟨(i 2).val, (i 2).isLt⟩ : Fin 64))))
    (⟨(i 1).val, (i 1).isLt⟩ : Fin 1024))

/-- How the three windows move over the eight grid points: the index block and the result block step together along
    the sample axis, 32 samples a point; the table's one block stays; nothing moves along the other axes. -/
theorem idx_facts : ∀ t : Fin cfg0.N, win0_0.index t (0 : Fin 2) = win0_2.index t (0 : Fin 3)
    ∧ win0_0.index t (1 : Fin 2) = 0
    ∧ win0_1.index t (0 : Fin 2) = 0 ∧ win0_1.index t (1 : Fin 2) = 0
    ∧ win0_2.index t (1 : Fin 3) = 0 ∧ win0_2.index t (2 : Fin 3) = 0
    ∧ win0_2.index t (0 : Fin 3) ≤ 7 :=
  (by decide +kernel : ∀ t : Fin grid0.N, _)

/-- Every one of the eight sample blocks is some point's. -/
theorem idx_onto : ∀ q0 : Fin 8, ∃ t : Fin cfg0.N, win0_2.index t = ![q0.val, 0, 0] :=
  (by decide +kernel : ∀ q0 : Fin 8, ∃ t : Fin grid0.N, win0_2.index t = ![q0.val, 0, 0])

/-- The index block at point `t` is samples `32 q … 32 q + 31` of the index array, `q` the point's sample block. -/
theorem iblk0_apply (c : Dev nD) (t : Fin cfg0.N) (b : Fin 32) (p : Fin 64) (k : S256x64.Idx)
    (hk0 : (k 0).val = win0_2.index t (0 : Fin 3) * 32 + b.val) (hk1 : (k 1).val = p.val) :
    (iblk m c 0 t : Vec Ideal S32x64 .i32) (ix2 b p) = (V m c main_arg0 : S256x64.Idx → BitVec 32) k := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 32 + 1 * b.val = (k 0).val; rw [e0, hk0]; omega
  | ⟨1, _⟩ => show win0_0.index t (1 : Fin 2) * 64 + 1 * p.val = (k 1).val; rw [e1, hk1]; omega

/-- The table's block at every point is the whole table. -/
theorem iblk1_apply (c : Dev nD) (t : Fin cfg0.N) (y : S1024x1024.Idx) :
    (iblk m c 1 t : Vec Ideal S1024x1024 .f32) y = (V m c main_arg1 : S1024x1024.Idx → Elt Ideal .f32) y := by
  obtain ⟨-, -, e2, e3, -⟩ := idx_facts t
  unfold iblk
  rw [View.read_apply]
  show V m c main_arg1 _ = V m c main_arg1 _
  congr 1
  funext a
  apply Fin.ext
  match a with
  | ⟨0, _⟩ => show win0_1.index t (0 : Fin 2) * 1024 + 1 * (y 0).val = (y 0).val; rw [e2]; omega
  | ⟨1, _⟩ => show win0_1.index t (1 : Fin 2) * 1024 + 1 * (y 1).val = (y 1).val; rw [e3]; omega

/-- WHAT POINT `t` WRITES BACK is block `t` of `rows` of the two argument arrays: at `(b, c, p)` of the block the
    one-hot product picks row `idx (32 q + b, p)` of the table, and the block sits at samples `32 q …` of the array. -/
theorem flushed_eq (c : Dev nD) (hr : Cert.Spec.InRange (V m c main_arg0)) (t : Fin cfg0.N) :
    (dats m 0 c).flushed 2 t = ((cfg0.win 2).blk t).view.read (Elt Ideal) (rows (V m c main_arg0) (V m c main_arg1)) := by
  show (cfg0.win 2).cut (grid0.coords t) ((dats m 0 c).after 2 t) = _
  rw [after0_2]
  unfold out0_2
  rw [View.canon_unit_zero hz3]
  simp only [View.ld_unit_zero (S := S32x64) hz2, View.ld_unit_zero (S := S1024x1024) hz2]
  obtain ⟨e0, e1, e2, e3, e4, e5, e6⟩ := idx_facts t
  funext j
  obtain ⟨b, cc, p, rfl⟩ : ∃ (b : Fin 32) (cc : Fin 1024) (p : Fin 64), j = ix3 b cc p := ⟨j 0, j 1, j 2, eq_ix3 j⟩
  show k0_pay1 (F := Ideal) (iblk m c 0 t) (iblk m c 1 t) (ix3 b cc p)
    = rows (V m c main_arg0) (V m c main_arg1) (((cfg0.win 2).blk t).view.emb (ix3 b cc p))
  have h0 : ∀ y, ((iblk m c 0 t : Vec Ideal S32x64 .i32) y).toNat < 1024 := by
    intro y
    obtain ⟨yb, yp, rfl⟩ : ∃ (yb : Fin 32) (yp : Fin 64), y = ix2 yb yp := ⟨y 0, y 1, eq_ix2 y⟩
    rw [iblk0_apply m c t yb yp (ix2 ⟨win0_2.index t (0 : Fin 3) * 32 + yb.val, by omega⟩ yp) rfl rfl]
    exact hr _
  refine (pay_apply (iblk m c 0 t) (iblk m c 1 t) h0 b cc p).trans ?_
  rw [iblk1_apply m c t, iblk0_apply m c t b p (ix2 ⟨win0_2.index t (0 : Fin 3) * 32 + b.val, by omega⟩ p) rfl rfl]
  unfold rows
  have hemb0 : ((((cfg0.win 2).blk t).view.emb (ix3 b cc p)) 0).val = win0_2.index t (0 : Fin 3) * 32 + b.val := by
    show win0_2.index t (0 : Fin 3) * 32 + 1 * b.val = _; omega
  have hemb1 : ((((cfg0.win 2).blk t).view.emb (ix3 b cc p)) 1).val = cc.val := by
    show win0_2.index t (1 : Fin 3) * 1024 + 1 * cc.val = _; omega
  have hemb2 : ((((cfg0.win 2).blk t).view.emb (ix3 b cc p)) 2).val = p.val := by
    show win0_2.index t (2 : Fin 3) * 64 + 1 * p.val = _; omega
  congr 1
  funext a
  match a with
  | ⟨0, _⟩ =>
    show Cert.Spec.rowOf _ = Cert.Spec.rowOf _
    congr 2
    funext a'
    apply Fin.ext
    match a' with
    | ⟨0, _⟩ => exact hemb0.symm
    | ⟨1, _⟩ => exact hemb2.symm
  | ⟨1, _⟩ => exact Fin.ext hemb1.symm

/-- An index of the array is in point `t`'s block iff each coordinate is in the block's range on its axis. -/
theorem mem_blk (t : Fin cfg0.N) (i : S256x1024x64.Idx) :
    i ∈ ((cfg0.win 2).blk t).view.set ↔ ∀ a : Fin 3, win0_2.index t a * S32x1024x64.size a ≤ (i a).val
      ∧ (i a).val < win0_2.index t a * S32x1024x64.size a + S32x1024x64.size a := by
  show i ∈ ((View.whole main_v0).slice (win0_2.rect t)).set ↔ _
  rw [View.set_slice_whole, Rect.mem_set_unit]
  exact Iff.rfl

/-- The eight blocks cover the array: sample `s` lies in the block of point `s / 32`. -/
theorem cover (i : S256x1024x64.Idx) :
    ∃ t : Fin cfg0.N, (cfg0.win 2).flush t = true ∧ i ∈ ((cfg0.win 2).blk t).view.set := by
  have hi0 : (i 0).val < 256 := (i 0).isLt
  have hi1 : (i 1).val < 1024 := (i 1).isLt
  have hi2 : (i 2).val < 64 := (i 2).isLt
  obtain ⟨t, ht⟩ := idx_onto ⟨(i 0).val / 32, by omega⟩
  have q0 : win0_2.index t (0 : Fin 3) = (i 0).val / 32 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 32 ≤ (i 0).val ∧ (i 0).val < win0_2.index t (0 : Fin 3) * 32 + 32; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 64 ≤ (i 2).val ∧ (i 2).val < win0_2.index t (2 : Fin 3) * 64 + 64; omega

/-- So the region's result array ends holding `rows` of the two argument arrays. -/
theorem final (c : Dev nD) (hr : Cert.Spec.InRange (V m c main_arg0)) :
    (dats m 0 c).arrAt 2 cfg0.N = rows (V m c main_arg0) (V m c main_arg1) :=
  (dats m 0 c).arrAt_eq_of_cover 2 (rows (V m c main_arg0) (V m c main_arg1)) (fun t _ => flushed_eq m c hr t) cover

/-- The lines after the region lay the `[256, 1024, 64]` array out as `[256, 1024, 8, 8]`, row-major: token `p` goes to
    grid position `(p / 8, p % 8)`. So the program's result is the gathered table. -/
theorem tail_eq (c : Dev nD) (hr : Cert.Spec.InRange (V m c main_arg0)) :
    Pipeline.afterTail₀ cfgs (dats m) 0 (V0 m) [hostOps1] c main_v1
      = Cert.Spec.gathered (m ((c : Thread nD τ).loc main_arg0)) (m ((c : Thread nD τ).loc main_arg1)) := by
  have hw : Pipeline.withArrays (cfgs 0).spec c (V0 m c) (fun w => (dats m 0 c).arrAt w (cfgs 0).N) (Proc.devRef .tc main_v0)
      = rows (V m c main_arg0) (V m c main_arg1) :=
    (Pipeline.withArrays_arr spec0 launch0.win.arr_inj c _ _ 2).trans (final m c hr)
  unfold Pipeline.afterTail₀
  show StableHlo.after hostOps1 _ (Proc.devRef .tc main_v1) = _
  after_results
  funext i
  obtain ⟨b, cc, g, h, rfl⟩ : ∃ (b : Fin 256) (cc : Fin 1024) (g h : Fin 8), i = ix4 b cc g h := ⟨i 0, i 1, i 2, i 3, eq_ix4 i⟩
  rw [Cert.Spec.gathered_apply]
  refine (shapeCast_apply (s := S256x1024x64) (t := S256x1024x8x8) _ shapeCasts_S256x1024x64_S256x1024x8x8
    (ix4 b cc g h) (ix3 b cc (Cert.Spec.tok g h)) ?_).trans ?_
  · rw [Shape.rowMajor_val_three, Shape.rowMajor_val_four]
    show (b.val * 1024 + cc.val) * 64 + (8 * g.val + h.val) = ((b.val * 1024 + cc.val) * 8 + g.val) * 8 + h.val
    omega
  · rw [hw]
    rfl

/-- THE KERNEL'S RUN, READ: under the index range, the program's result ends at the gathered table of its two
    arguments, which end unchanged. -/
theorem run (hr : ∀ c : Dev nD, Cert.Spec.InRange (m ((c : Thread nD τ).loc main_arg0))) :
    θ_run defs (onTc (τ := τ) (main (F := Ideal))) ⟨m, fun _ => 0, ρ⟩ fun r => ∀ c : Dev nD,
      r.2.mem ((c : Thread nD τ).loc main_v1)
        = Cert.Spec.gathered (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v1 (Pipeline.mem_restRefs_of main_v1 rfl (fun w => by fin_cases w <;> decide))).trans (tail_eq m c (hr c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelValue

end
-- ==== Proof.RefTerm.lean ====
/-
  The reference's result as one pure term of its two arguments, operation by operation as its
  program applies them.

  The index array is flattened to 16384 words.  A negative word is moved up by the table's height
  1024 (`wrapped`); the moved word, as a one-entry start vector per position (`startIdx`), is
  tested for lying in [0, 1023] (`inBounds`); the table's row at the start index is fetched
  (the gather), and a position whose start index is out of bounds gets the not-a-number word
  instead (`take`).  The 16384 x 1024 rows are then laid out as 256 x 8 x 8 x 1024 and the table
  axis is moved to second place (`result`).
-/
import proofs.«427509_j69252052681266_3_alg».proof.ReferenceIdeal

noncomputable section

namespace Cert.ReferenceIdeal.RefTerm

open Idealize.ShloMosaic Cert.ReferenceIdeal Cert.ReferenceIdeal.Facts₀

variable {F : FTy → Type} [FloatOps F] [Facts]

/-- A negative index word moved up by 1024; any other word as it is. -/
def wrapped (i : IVec S16384 32) : IVec S16384 32 :=
  select (cmpi .slt i (broadcastInDim S16384 ![] bcast_S_S16384 (constantI S_ 32 0#32)))
    (addi i (broadcastInDim S16384 ![] bcast_S_S16384 (constantI S_ 32 1024#32))) i

/-- The one-entry start vector of each position. -/
def startIdx (i : IVec S16384 32) : IVec S16384x1 32 :=
  broadcastInDim S16384x1 ![0] bcast_S16384_S16384x1_0 (wrapped i)

/-- Per position: the start index lies in [0, 1023]. -/
def inBounds (i : IVec S16384 32) : IVec S16384 1 :=
  Host.reduce IntOp.andi
    (andi (cmpi .sge (startIdx i) (broadcastInDim S16384x1 ![] bcast_S_S16384x1 (constantI S_ 32 0#32)))
      (cmpi .sle (startIdx i)
        (broadcastInDim S16384x1 ![0, 1] bcast_S1x1_S16384x1_0_1
          (broadcastInDim S1x1 ![1] bcast_S1_S1x1_1 (constantI S1 32 1023#32)))))
    (constantI S_ 1 1#1) reducesTo_S16384x1_S16384_d1 h_S_

/-- The rows of the table at the start indices; the not-a-number word where the start index is out of bounds. -/
def take (w : FVec F S1024x1024 .f32) (i : IVec S16384 32) : FVec F S16384x1024 .f32 :=
  select (broadcastInDim S16384x1024 ![0] bcast_S16384_S16384x1024_0 (inBounds i))
    (Host.gather gather_S1024x1024_S16384x1_S16384x1024_1_0_n_n_0_1_11024 w (startIdx i))
    (broadcastInDim S16384x1024 ![] bcast_S_S16384x1024 (constant S_ .f32 0x7FC00000#32))

/-- The reference's result: the taken rows laid out per sample and grid position, the table axis second. -/
def result (idx : IVec S256x64 32) (w : FVec F S1024x1024 .f32) : FVec F S256x1024x8x8 .f32 :=
  transpose S256x1024x8x8 [0, 3, 1, 2]
    (shapeCast S256x8x8x1024 (take w (shapeCast S16384 idx shapeCasts_S256x64_S16384)) shapeCasts_S16384x1024_S256x8x8x1024)
    transposes_S256x8x8x1024_S256x1024x8x8_0_3_1_2

end Cert.ReferenceIdeal.RefTerm

end
-- ==== Proof.RefRun.lean ====
/-
  The reference program's run.  Its entry function is a reshape of the index array, a call of the
  row-taking function (twenty-two operations, one of them a call of the three-way select), a
  reshape of the taken rows and a transpose.  Calls mean: run the callee's operations on the
  caller's buffers, so the whole program is one straight line of twenty-six operations, each writing
  a buffer of its own.  A straight line run from any memory terminates with every buffer at the
  fold of the operations over the launch contents; read at the last buffer the fold is the
  composed term of the two arguments, and read at an argument it is the argument.
-/
import proofs.«427509_j69252052681266_3_alg».proof.ReferenceIdeal
import proofs.«427509_j69252052681266_3_alg».proof.Proof.RefTerm
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- The twenty-six operations in program order: the flattening of the index array; the row-taking
    function's twenty-three (the wrap of negative words: zero, its spread, the sign test, the
    height, its spread, the sum, the three-way select; the start vectors; the bounds test: the
    upper limit, zero, its spread, the lower test, the limit spread twice, the upper test, the
    conjunction, the unit, the reduction; the row fetch; the test spread over the rows; the
    not-a-number word, its spread; the final select); the relayout and the transpose. -/
abbrev ops : List (HloOp τ sig (Elt F)) :=
  [ reshape main_arg0 main_v0 rfl shapeCasts_S256x64_S16384,
    TRef.nullary main_call0.c (constantI S_ 32 0#32),
    TRef.unary main_call0.c main_call0.v0 (broadcastInDim S16384 ![] bcast_S_S16384),
    TRef.binary (.of main_v0) main_call0.v0 main_call0.v1 (cmpi .slt),
    TRef.nullary main_call0.c_0 (constantI S_ 32 1024#32),
    TRef.unary main_call0.c_0 main_call0.v2 (broadcastInDim S16384 ![] bcast_S_S16384),
    TRef.binary (.of main_v0) main_call0.v2 main_call0.v3 addi,
    TRef.ternary main_call0.v1 main_call0.v3 (.of main_v0) main_call0.call0.v0 select,
    TRef.unary main_call0.call0.v0 main_call0.v5 (broadcastInDim S16384x1 ![0] bcast_S16384_S16384x1_0),
    TRef.nullary main_call0.c_1 (constantI S1 32 1023#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1024x1024_S16384x1_S16384x1024_1_0_n_n_0_1_11024 x i),
    TRef.unary main_call0.v12 main_call0.v14 (broadcastInDim S16384x1024 ![0] bcast_S16384_S16384x1024_0),
    TRef.nullary main_call0.cst (constant S_ .f32 0x7FC00000#32),
    TRef.unary main_call0.cst main_call0.v15 (broadcastInDim S16384x1024 ![] bcast_S_S16384x1024),
    TRef.ternary main_call0.v14 main_call0.v13 main_call0.v15 main_call0.v16 select,
    reshape main_v1 main_v2 rfl shapeCasts_S16384x1024_S256x8x8x1024,
    unary main_v2 main_v3 ((transpose S256x1024x8x8 [0, 3, 1, 2] · transposes_S256x8x8x1024_S256x1024x8x8_0_3_1_2) : (⟨S256x8x8x1024, .f32⟩ : BufTy).Contents (Elt F) → (⟨S256x1024x8x8, .f32⟩ : BufTy).Contents (Elt F)) ]

-- the chain is twenty-six sequencing steps deep, and re-association descends one level per step
set_option maxRecDepth 1024 in
/-- The entry function is that straight line: the two callees' definitions opened at their calls,
    both sides are one chain of steps once sequencing is re-associated. -/
theorem main_eq (c : Dev nD) : main (F := F) c = seq ops := by
  simp only [main, fn_take.body, fn_where.body, seq, bind_assoc, pure_bind]

/-- No buffer of this program is scoped. -/
theorem scopedRefs_eq : (Finset.univ.filter fun b : Ref sig .tc => b.isScoped) = ∅ := by decide
/-- It has no semaphore, so none is scoped. -/
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    reshape_bufs_sub .., unary_bufs_sub ..⟩

/-- From any memory with zero counters every weakly fair execution terminates, and every buffer
    ends at the fold of the twenty-six operations over the launch contents. -/
theorem run_fold (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Read at the last buffer, the fold is the composed term of the two arguments: each operation's
    result at its own buffer is its function applied to its operands' contents, at any other buffer
    what was there; the typed references' transports are the identity at these literal buffers. -/
theorem after_v3 (V : Valuation τ sig (Elt F)) :
    after ops V (main_v3 : DevRef τ sig)
      = RefTerm.result (F := F) (V (main_arg0 : DevRef τ sig)) (V (main_arg1 : DevRef τ sig)) := by
  after_results
  simp only [TRef.toBuf, TRef.ofBuf, cast_eq]
  rfl

/-- No operation writes the index array's buffer. -/
theorem after_arg0 (V : Valuation τ sig (Elt F)) :
    after ops V (main_arg0 : DevRef τ sig) = V (main_arg0 : DevRef τ sig) := by
  after_results

/-- No operation writes the table's buffer. -/
theorem after_arg1 (V : Valuation τ sig (Elt F)) :
    after ops V (main_arg1 : DevRef τ sig) = V (main_arg1 : DevRef τ sig) := by
  after_results

/-- On every device, from any memory with zero counters: every weakly fair execution of the
    reference terminates, its result buffer holds the composed term of the two arguments' launch
    contents, and the two arguments are unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v3) = RefTerm.result (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v3).trans (after_v3 _), (h c main_arg0).trans (after_arg0 _),
      (h c main_arg1).trans (after_arg1 _)⟩)
    (run_fold m ρ)

end Cert.ReferenceIdeal.RefRun

end
-- ==== Proof.RefValue.lean ====
/-
  The reference's result, read one element at a time, is the gathered table.

  Write x for the index word of token p of sample b.  The reference flattens the index array, so x
  sits at flat position 64 b + p.  With 0 ≤ x < 1024 (x read as a natural number is below 1024, so
  x read signed is that same number) three things happen at that position.  The test "x < 0" fails,
  so the word is not moved.  The test "0 ≤ x ≤ 1023", folded by "and" over an axis of one entry, is
  true, so the position keeps its fetched row rather than the not-a-number filler.  The fetch clamps
  the start row into [0, 1023], which leaves x alone, so the row fetched is row x of the table and
  its entry c is w (x, c).  The two layout steps only move entries: the flat row 64 b + 8 g + h of
  the 16384 x 1024 rows becomes entry (b, g, h, ·), and the last axis is then moved to second place.
  Together: result (b, c, g, h) = w (x, c) with x the word of token 8 g + h of sample b.
-/
import proofs.«427509_j69252052681266_3_alg».proof.Proof.RefTerm
import proofs.«427509_j69252052681266_3_alg».proof.Proof.Spec
import Idealize.ShloMosaic.Lib.ValueIdx
import Idealize.ShloMosaic.Lib.Pipeline.Value
import Idealize.ShloMosaic.Lib.ReduceAll
import Idealize.ShloMosaic.Lib.StableHlo.Predicate

noncomputable section

namespace Cert.ReferenceIdeal.RefValue

open Idealize.ShloMosaic Idealize.ShloMosaic.ValueIdx Cert.ReferenceIdeal Cert.ReferenceIdeal.Facts₀

variable [Cert.ReferenceIdeal.Facts]

local notation "G" => gather_S1024x1024_S16384x1_S16384x1024_1_0_n_n_0_1_11024

/-! ## The row fetch at an index

Result entry (r, c) of the fetch reads the table at (start, c): on the row axis the start index of
position r, read signed and clamped into [0, 1023], with no batch and no offset part; on the column
axis no start and no batch part, the offset c. -/

/-- Row axis of the table index read by result entry (r, c): the clamped start index of position r. -/
theorem operandIdx_row {w : Nat} (idx : IVec S16384x1 w) (r : Fin 16384) (c : Fin 1024) :
    (GatherDims.operandIdx G (ix2 r c) idx (0 : Fin 2)).val = min (idx (ix2 r (0 : Fin 1))).toInt.toNat 1023 := by
  show GatherDims.start G (ix2 r c) idx (0 : Fin 2) + GatherDims.batchCoord G (ix2 r c) (0 : Fin 2)
      + GatherDims.offCoord G (ix2 r c) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ GatherDims.startIndexMap G from List.mem_singleton.mpr rfl)]
  have hsi : GatherDims.siIdx G (ix2 r c) ⟨List.idxOf (0 : Fin 2) (GatherDims.startIndexMap G),
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- Column axis of the table index read by result entry (r, c): c itself. -/
theorem operandIdx_col {w : Nat} (idx : IVec S16384x1 w) (r : Fin 16384) (c : Fin 1024) :
    (GatherDims.operandIdx G (ix2 r c) idx (1 : Fin 2)).val = c.val := by
  show GatherDims.start G (ix2 r c) idx (1 : Fin 2) + GatherDims.batchCoord G (ix2 r c) (1 : Fin 2)
      + GatherDims.offCoord G (ix2 r c) (1 : Fin 2) = _
  rw [GatherDims.batchCoord_eq_zero _ _ _ List.not_mem_nil]
  have hs : GatherDims.start G (ix2 r c) idx (1 : Fin 2) = 0 := by
    unfold GatherDims.start
    rw [dif_neg (show ¬ (1 : Fin 2) ∈ GatherDims.startIndexMap G from by
      intro h; exact absurd (List.mem_singleton.mp h) (by decide))]
  rw [hs]
  simp only [Nat.add_zero, Nat.zero_add]
  rfl

/-- The fetch at (r, c): the table at the clamped start row of position r, column c. -/
theorem gather_apply {α : Type} {w : Nat} (x : S1024x1024.Idx → α) (idx : IVec S16384x1 w)
    (r : Fin 16384) (c : Fin 1024) :
    Host.gather G x idx (ix2 r c)
      = x (ix2 (⟨min (idx (ix2 r (0 : Fin 1))).toInt.toNat 1023, by omega⟩ : Fin 1024) c) := by
  unfold Host.gather
  congr 1
  funext a
  refine Fin.ext ?_
  match a with
  | ⟨0, _⟩ => exact operandIdx_row idx r c
  | ⟨1, _⟩ => exact operandIdx_col idx r c

/-! ## Words below 1024 -/

/-- A word below 1024 read signed is the same number. -/
theorem toInt_of_lt {x : BitVec 32} (hx : x.toNat < 1024) : x.toInt = (x.toNat : Int) :=
  StableHlo.Predicate.toInt_eq_toNat_of_lt (by omega)

theorem toInt_zero32 : (0#32 : BitVec 32).toInt = 0 := by decide

theorem toInt_1023 : (1023#32 : BitVec 32).toInt = 1023 := by decide

/-- Such a word is not negative. -/
theorem slt_zero {x : BitVec 32} (hx : x.toNat < 1024) : IntOp.cmpi .slt x 0#32 = 0#1 := by
  refine eq_zero_of_ne_one fun h => ?_
  rw [IntOp.cmpi_slt, toInt_of_lt hx, toInt_zero32] at h
  omega

theorem sge_zero {x : BitVec 32} (hx : x.toNat < 1024) : IntOp.cmpi .sge x 0#32 = 1#1 := by
  rw [IntOp.cmpi_sge, toInt_of_lt hx, toInt_zero32]
  omega

theorem sle_1023 {x : BitVec 32} (hx : x.toNat < 1024) : IntOp.cmpi .sle x 1023#32 = 1#1 := by
  rw [IntOp.cmpi_sle, toInt_of_lt hx, toInt_1023]
  omega

/-- A fold by "and" from 1 over entries that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-! ## One flat position whose word is below 1024 -/

/-- The word is not moved. -/
theorem wrapped_apply (i : IVec S16384 32) (r : Fin 16384) (hx : (i (ix1 r)).toNat < 1024) :
    RefTerm.wrapped i (ix1 r) = i (ix1 r) := by
  show Scalar.select (IntOp.cmpi .slt (i (ix1 r)) 0#32) (IntOp.addi (i (ix1 r)) 1024#32) (i (ix1 r)) = _
  rw [slt_zero hx, select_zero]

/-- The one entry of the position's start vector is its (possibly moved) word. -/
theorem startIdx_apply (i : IVec S16384 32) (r : Fin 16384) :
    RefTerm.startIdx i (ix2 r (0 : Fin 1)) = RefTerm.wrapped i (ix1 r) := by
  unfold RefTerm.startIdx
  refine broadcastInDim_apply _ _ _ _ (ix1 r) fun a => ?_
  match a with
  | ⟨0, _⟩ => rfl

/-- The bounds test holds at the position. -/
theorem inBounds_apply (i : IVec S16384 32) (r : Fin 16384) (hx : (i (ix1 r)).toNat < 1024) :
    RefTerm.inBounds i (ix1 r) = 1#1 := by
  unfold RefTerm.inBounds
  rw [Host.reduce_eq_foldl]
  refine foldl_andi_one _ _ fun n hn => ?_
  have hd : reducesTo_S16384x1_S16384_d1.drop n = ix1 r := of_decide_eq_true (List.mem_filter.mp hn).2
  obtain ⟨a, b, rfl⟩ : ∃ (a : Fin 16384) (b : Fin 1), n = ix2 a b := ⟨n 0, n 1, eq_ix2 n⟩
  have h0 := Shape.ReducesTo.drop_apply_val_of_eq reducesTo_S16384x1_S16384_d1 (ix2 a b) (0 : Fin 1) (0 : Fin 2)
  rw [hd] at h0
  obtain rfl : r = a := Fin.ext h0
  obtain rfl : b = 0 := Subsingleton.elim _ _
  show IntOp.andi (IntOp.cmpi .sge (RefTerm.startIdx i (ix2 r (0 : Fin 1))) 0#32)
      (IntOp.cmpi .sle (RefTerm.startIdx i (ix2 r (0 : Fin 1))) 1023#32) = 1#1
  rw [startIdx_apply, wrapped_apply i r hx]
  exact IntOp.andi_eq_one.mpr ⟨sge_zero hx, sle_1023 hx⟩

/-- The taken row at the position is the table's row named by its word. -/
theorem take_apply (w : FVec Ideal S1024x1024 .f32) (i : IVec S16384 32) (r : Fin 16384) (c : Fin 1024)
    (hx : (i (ix1 r)).toNat < 1024) :
    RefTerm.take w i (ix2 r c) = w (ix2 (Cert.Spec.rowOf (i (ix1 r))) c) := by
  unfold RefTerm.take
  rw [select_apply]
  have hb : broadcastInDim S16384x1024 ![0] bcast_S16384_S16384x1024_0 (RefTerm.inBounds i) (ix2 r c)
      = RefTerm.inBounds i (ix1 r) := by
    refine broadcastInDim_apply _ _ _ _ (ix1 r) fun a => ?_
    match a with
    | ⟨0, _⟩ => rfl
  rw [hb, inBounds_apply i r hx, select_one, gather_apply]
  have hrow : min (RefTerm.startIdx i (ix2 r (0 : Fin 1))).toInt.toNat 1023 = (Cert.Spec.rowOf (i (ix1 r))).val := by
    rw [startIdx_apply, wrapped_apply i r hx, Cert.Spec.rowOf_val_of_lt hx, toInt_of_lt hx]
    omega
  exact congrArg w (congrArg (fun a => ix2 a c) (Fin.ext hrow))

/-! ## The layout steps at an index -/

/-- The flat position of token p of sample b. -/
def pos (b : Fin 256) (p : Fin 64) : Fin 16384 := ⟨b.val * 64 + p.val, by have := b.isLt; have := p.isLt; omega⟩

/-- The flattened index array at the flat position of token p of sample b. -/
theorem idxFlat_apply (idx : IVec S256x64 32) (b : Fin 256) (p : Fin 64) :
    shapeCast S16384 idx shapeCasts_S256x64_S16384 (ix1 (pos b p)) = idx (ix2 b p) := by
  refine shapeCast_apply _ _ _ (ix2 b p) ?_
  rw [Shape.rowMajor_val_two, Shape.rowMajor_val_one]
  rfl

/-- The rows laid out per sample and grid position: entry (b, g, h, c) is entry c of the flat row of token 8 g + h. -/
theorem rows_apply {α : Type} (x : S16384x1024.Idx → α) (b : Fin 256) (g hh : Fin 8) (c : Fin 1024) :
    shapeCast S256x8x8x1024 x shapeCasts_S16384x1024_S256x8x8x1024 (ix4 b g hh c)
      = x (ix2 (pos b (Cert.Spec.tok g hh)) c) := by
  refine shapeCast_apply _ _ _ _ ?_
  rw [Shape.rowMajor_val_two, Shape.rowMajor_val_four]
  show (b.val * 64 + (8 * g.val + hh.val)) * 1024 + c.val = ((b.val * 8 + g.val) * 8 + hh.val) * 1024 + c.val
  omega

/-- The table axis moved to second place: entry (b, c, g, h) is the operand's (b, g, h, c). -/
theorem transposed_apply {α : Type} (x : S256x8x8x1024.Idx → α) (b : Fin 256) (c : Fin 1024) (g hh : Fin 8) :
    transpose S256x1024x8x8 [0, 3, 1, 2] x transposes_S256x8x8x1024_S256x1024x8x8_0_3_1_2 (ix4 b c g hh)
      = x (ix4 b g hh c) := by
  refine transpose_apply _ _ _ _ (ix4 b g hh c) fun a => ?_
  match a with
  | ⟨0, _⟩ => rfl
  | ⟨1, _⟩ => rfl
  | ⟨2, _⟩ => rfl
  | ⟨3, _⟩ => rfl

/-! ## The result -/

/-- With every index word below 1024 the reference's result is the gathered table. -/
theorem result_eq (idx : IVec S256x64 32) (w : FVec Ideal S1024x1024 .f32) (h : Cert.Spec.InRange idx) :
    RefTerm.result (F := Ideal) idx w = Cert.Spec.gathered idx w := by
  funext i
  obtain ⟨b, c, g, hh, rfl⟩ : ∃ (b : Fin 256) (c : Fin 1024) (g hh : Fin 8), i = ix4 b c g hh :=
    ⟨i 0, i 1, i 2, i 3, eq_ix4 i⟩
  rw [Cert.Spec.gathered_apply]
  unfold RefTerm.result
  rw [transposed_apply, rows_apply,
    take_apply w _ (pos b (Cert.Spec.tok g hh)) c (by rw [idxFlat_apply]; exact h _), idxFlat_apply]

end Cert.ReferenceIdeal.RefValue

end
-- ==== Proof.lean ====
/-
  Gathering rows of a table: a one-hot matrix product against an indexed take.

  Both programs are given an array of index words (256 samples of 64 tokens) and a table of 1024 rows, and both
  return, for sample `b`, table column `c` and position `(g, h)` of the sample's 8 x 8 grid of tokens, entry `c` of
  the table row that token `8 g + h` names (`Cert.Spec.gathered`).

  The kernel selects the row arithmetically: it multiplies the table by a matrix that has, in the token's row, a one
  at the index word and zeros elsewhere.  On the extended reals `1 * x = x` and `0 * x = 0` for every `x`, so the
  sum over the table's rows is the one selected entry (`Cert.KernelIdeal.OneHot`, `Cert.KernelIdeal.KernelValue`).
  The reference fetches the row by position; before that it moves a negative index up by the table's height and
  afterwards it replaces a row fetched at an index outside the table by not-a-number
  (`Cert.ReferenceIdeal.RefTerm`, `RefRun`, `RefValue`).

  The two agree exactly where every index word names a row of the table, `0 <= idx < 1024`: there the reference
  neither moves nor replaces anything, and the kernel's one-hot row has its one.  That range is the precondition's
  second conjunct (`Cert.PreRange`).  Outside it they differ (at index `-1` the reference returns the last row
  and the kernel a row of zeros), so the range is used, not only carried.  Finiteness of the table is not needed
  for the equality.

  The three frames: the two kernel programs' are the generated frame certificates; the reference has no kernel, and
  its frame is its run with the result dropped.  The idealization rewrote nothing, so `preserves` is `True`.
-/
import proofs.«427509_j69252052681266_3_alg».proof.Defs
import proofs.«427509_j69252052681266_3_alg».proof.Proof.Gen.Kernel
import proofs.«427509_j69252052681266_3_alg».proof.Proof.Gen.Kernel.Skeleton
import proofs.«427509_j69252052681266_3_alg».proof.Proof.Gen.Kernel.Launch
import proofs.«427509_j69252052681266_3_alg».proof.Proof.Gen.Kernel.Points
import proofs.«427509_j69252052681266_3_alg».proof.Proof.Gen.Kernel.Frame
import proofs.«427509_j69252052681266_3_alg».proof.Proof.Gen.KernelIdeal
import proofs.«427509_j69252052681266_3_alg».proof.Proof.Gen.KernelIdeal.Skeleton
import proofs.«427509_j69252052681266_3_alg».proof.Proof.Gen.KernelIdeal.Launch
import proofs.«427509_j69252052681266_3_alg».proof.Proof.Gen.KernelIdeal.Points
import proofs.«427509_j69252052681266_3_alg».proof.Proof.Gen.KernelIdeal.Frame
import proofs.«427509_j69252052681266_3_alg».proof.Proof.Gen.ReferenceIdeal
import proofs.«427509_j69252052681266_3_alg».proof.Proof.Gen.Pre_finite_inputs
import proofs.«427509_j69252052681266_3_alg».proof.Proof.Spec
import proofs.«427509_j69252052681266_3_alg».proof.Proof.PreRange
import proofs.«427509_j69252052681266_3_alg».proof.Proof.KernelValue
import proofs.«427509_j69252052681266_3_alg».proof.Proof.RefRun
import proofs.«427509_j69252052681266_3_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Under the precondition every index word names a row of the table; then the kernel's result is the gathered table
    (its run, read), and so is the reference's (its run, read at an index), of arguments that agree. -/
theorem algebraic : Cert.algebraic_KernelIdeal_ReferenceIdeal := by
  intro m ρ m' ρ' hpre hagree
  have hr : ∀ c : Dev Cert.KernelIdeal.nD,
      Cert.Spec.InRange (m ((c.tc : Thread Cert.KernelIdeal.nD Cert.KernelIdeal.τ).loc Cert.KernelIdeal.main_arg0)) :=
    fun c => Cert.PreRange.inRange_of_pre _ _ (hpre c)
  refine ⟨_, Cert.KernelIdeal.KernelValue.run m ρ hr, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.result_eq _ _ (hr c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
